-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1048576x18 : Shape := ⟨2, ![1048576, 18]⟩
abbrev S64x18 : Shape := ⟨2, ![64, 18]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1048576x18 : S_.BroadcastsInDim S1048576x18 (![] : Fin 0 → Fin S1048576x18.rank)
  reducesTo_S1048576x18_S_d0_1 : S1048576x18.ReducesTo [0, 1] S_
  bcast_S_S64x18 : S_.BroadcastsInDim S64x18 (![] : Fin 0 → Fin S64x18.rank)
  reducesTo_S64x18_S_d0_1 : S64x18.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1 .f32) (main_arg8 : FVec F S1024 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S64x64 .f32) (main_arg5 : FVec F S64 .f32) (main_arg6 : FVec F S1x64 .f32) (main_arg7 : FVec F S1 .f32) (main_arg8 : FVec F S1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1048576x18 .f32) (main_arg2 : FVec F S64x18 .f32) (main_arg3 : FVec F S64 .f32) (main_arg4 : FVec F S64x64 .f32) (main_arg5 : FVec F S64 .f32) (main_arg6 : FVec F S1x64 .f32) (main_arg7 : FVec F S1 .f32) (main_arg8 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1048576x18 .f32 := Host.absf main_arg1
  let main_cst_0 : FVec F S_ .f32 := constant S_ .f32 0x7F800000#32
  let main_v5 : FVec F S1048576x18 .f32 := broadcastInDim S1048576x18 ![] bcast_S_S1048576x18 main_cst_0
  let main_v6 : IVec S1048576x18 1 := cmpf .olt main_v4 main_v5
  let main_c_1 : IVec S_ 1 := constantI S_ 1 1#1
  let main_v7 : IVec S_ 1 := (fun x v => Host.reduce IntOp.andi x v reducesTo_S1048576x18_S_d0_1 h_S_) main_v6 main_c_1
  let main_v8 : IVec S_ 1 := andi main_v3 main_v7
  let main_v9 : FVec F S64x18 .f32 := Host.absf main_arg2
  let main_cst_2 : FVec F S_ .f32 := constant S_ .f32 0x7F800000#32
  let main_v10 : FVec F S64x18 .f32 := broadcastInDim S64x18 ![] bcast_S_S64x18 main_cst_2
  let main_v11 : IVec S64x18 1 := cmpf .olt main_v9 main_v10
  let main_c_3 : IVec S_ 1 := constantI S_ 1 1#1
  let main_v12 : IVec S_ 1 := (fun x v => Host.reduce IntOp.andi x v reducesTo_S64x18_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1048576x18 : Shape := ⟨2, ![1048576, 18]⟩
abbrev S64x18 : Shape := ⟨2, ![64, 18]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1024 : Shape := ⟨1, ![1024]⟩
abbrev S18x64 : Shape := ⟨2, ![18, 64]⟩
abbrev S64x1 : Shape := ⟨2, ![64, 1]⟩
abbrev S1x1 : Shape := ⟨2, ![1, 1]⟩
abbrev S1048576x1 : Shape := ⟨2, ![1048576, 1]⟩
abbrev S4096x18 : Shape := ⟨2, ![4096, 18]⟩
abbrev S4096x1 : Shape := ⟨2, ![4096, 1]⟩
abbrev S4096x64 : Shape := ⟨2, ![4096, 64]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1048576x18, .f32⟩
  | .hbm, ⟨2, _⟩ => ⟨S64x18, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1024, .f32⟩
  | .hbm, ⟨9, _⟩ => ⟨S18x64, .f32⟩
  | .hbm, ⟨10, _⟩ => ⟨S1x64, .f32⟩
  | .hbm, ⟨11, _⟩ => ⟨S64x64, .f32⟩
  | .hbm, ⟨12, _⟩ => ⟨S1x64, .f32⟩
  | .hbm, ⟨13, _⟩ => ⟨S64x1, .f32⟩
  | .hbm, ⟨14, _⟩ => ⟨S1x1, .f32⟩
  | .hbm, ⟨15, _⟩ => ⟨S1048576x1, .f32⟩
  | .hbm, ⟨16, _⟩ => ⟨S1024x1024, .f32⟩
  | .hbm, ⟨17, _⟩ => ⟨S1x1024, .f32⟩
  | .hbm, ⟨18, _⟩ => ⟨S8192x1024, .f32⟩
  | .local _ .vmem, ⟨0, _⟩ => ⟨S4096x18, .f32⟩
  | .local _ .vmem, ⟨1, _⟩ => ⟨S4096x18, .f32⟩
  | .local _ .vmem, ⟨2, _⟩ => ⟨S18x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S4096x1, .f32⟩
  | .local _ .vmem, ⟨9, _⟩ => ⟨S4096x1, .f32⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S64x18_S18x64_1_0 : S64x18.Transposes [1, 0] S18x64
  shapeCasts_S64_S1x64 : S64.ShapeCasts S1x64
  transposes_S64x64_S64x64_1_0 : S64x64.Transposes [1, 0] S64x64
  transposes_S1x64_S64x1_1_0 : S1x64.Transposes [1, 0] S64x1
  shapeCasts_S1_S1x1 : S1.ShapeCasts S1x1
  inb_S4096x18_S4096x18_0_0 : ∀ a, (![0, 0] : Fin 2 → Nat) a + S4096x18.size a ≤ S4096x18.size a
  h_S4096x18 : 0 < S4096x18.numel
  inb_S18x64_S18x64_0_0 : ∀ a, (![0, 0] : Fin 2 → Nat) a + S18x64.size a ≤ S18x64.size a
  h_S18x64 : 0 < S18x64.numel
  shapeCasts_S18x64_S18x64 : S18x64.ShapeCasts S18x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S1048576x1_S1024x1024 : S1048576x1.ShapeCasts S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S4096x18_S18x64_S4096x64_1_0_0_1_n_n_wf : DotDims.WF S4096x18 S18x64 S4096x64 [1] [0] [0] [1] [] []
  dot_S4096x64_S64x64_S4096x64_1_0_0_1_n_n_wf : DotDims.WF S4096x64 S64x64 S4096x64 [1] [0] [0] [1] [] []
  dot_S4096x64_S64x1_S4096x1_1_0_0_1_n_n_wf : DotDims.WF S4096x64 S64x1 S4096x1 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x18.size a ≤ S1048576x18.size a
  hwx0_0 : ∀ i : grid0.Coords, EltTy.bits .f32 = 32 ∨ (Rect.block (s := S1048576x18) S4096x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x64.size a ≤ S18x64.size a
  hwx0_1 : ∀ i : grid0.Coords, EltTy.bits .f32 = 32 ∨ (Rect.block (s := S18x64) S18x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S1048576x1.size a
  hwx0_7 : ∀ i : grid0.Coords, EltTy.bits .f32 = 32 ∨ (Rect.block (s := S1048576x1) S4096x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)

variable [Facts₀]

def dot_S4096x18_S18x64_S4096x64_1_0_0_1_n_n : DotDims S4096x18 S18x64 S4096x64 where
  lhsContracting := [1]
  rhsContracting := [0]
  lhsNonContracting := [0]
  rhsNonContracting := [1]
  lhsBatch := []
  rhsBatch := []
  wf := dot_S4096x18_S18x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S4096x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S18x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1048576x18 : Shape := ⟨2, ![1048576, 18]⟩
abbrev S64x18 : Shape := ⟨2, ![64, 18]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1024 : Shape := ⟨1, ![1024]⟩
abbrev S18x64 : Shape := ⟨2, ![18, 64]⟩
abbrev S1048576x64 : Shape := ⟨2, ![1048576, 64]⟩
abbrev S_ : Shape := ⟨0, ![]⟩
abbrev S64x1 : Shape := ⟨2, ![64, 1]⟩
abbrev S1048576x1 : Shape := ⟨2, ![1048576, 1]⟩
abbrev S1x1 : Shape := ⟨2, ![1, 1]⟩
abbrev S1024x1024 : Shape := ⟨2, ![1024, 1024]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1048576x18, .f32⟩
  | .hbm, ⟨2, _⟩ => ⟨S64x18, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1024, .f32⟩
  | .hbm, ⟨9, _⟩ => ⟨S18x64, .f32⟩
  | .hbm, ⟨10, _⟩ => ⟨S1048576x64, .f32⟩
  | .hbm, ⟨11, _⟩ => ⟨S1x64, .f32⟩
  | .hbm, ⟨12, _⟩ => ⟨S1048576x64, .f32⟩
  | .hbm, ⟨13, _⟩ => ⟨S1048576x64, .f32⟩
  | .hbm, ⟨14, _⟩ => ⟨S_, .f32⟩
  | .hbm, ⟨15, _⟩ => ⟨S1048576x64, .f32⟩
  | .hbm, ⟨16, _⟩ => ⟨S1048576x64, .f32⟩
  | .hbm, ⟨17, _⟩ => ⟨S1048576x64, .f32⟩
  | .hbm, ⟨18, _⟩ => ⟨S64x64, .f32⟩
  | .hbm, ⟨19, _⟩ => ⟨S1048576x64, .f32⟩
  | .hbm, ⟨20, _⟩ => ⟨S1x64, .f32⟩
  | .hbm, ⟨21, _⟩ => ⟨S1048576x64, .f32⟩
  | .hbm, ⟨22, _⟩ => ⟨S1048576x64, .f32⟩
  | .hbm, ⟨23, _⟩ => ⟨S_, .f32⟩
  | .hbm, ⟨24, _⟩ => ⟨S1048576x64, .f32⟩
  | .hbm, ⟨25, _⟩ => ⟨S1048576x64, .f32⟩
  | .hbm, ⟨26, _⟩ => ⟨S1048576x64, .f32⟩
  | .hbm, ⟨27, _⟩ => ⟨S64x1, .f32⟩
  | .hbm, ⟨28, _⟩ => ⟨S1048576x1, .f32⟩
  | .hbm, ⟨29, _⟩ => ⟨S1x1, .f32⟩
  | .hbm, ⟨30, _⟩ => ⟨S1048576x1, .f32⟩
  | .hbm, ⟨31, _⟩ => ⟨S1048576x1, .f32⟩
  | .hbm, ⟨32, _⟩ => ⟨S1024x1024, .f32⟩
  | .hbm, ⟨33, _⟩ => ⟨S1024x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  transposes_S64x18_S18x64_1_0 : S64x18.Transposes [1, 0] S18x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S1024x1024 : S1048576x1.ShapeCasts S1024x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S1048576x18_S18x64_S1048576x64_1_0_0_1_n_n_wf : DotDims.WF S1048576x18 S18x64 S1048576x64 [1] [0] [0] [1] [] []
  dot_S1048576x64_S64x64_S1048576x64_1_0_0_1_n_n_wf : DotDims.WF S1048576x64 S64x64 S1048576x64 [1] [0] [0] [1] [] []
  dot_S1048576x64_S64x1_S1048576x1_1_0_0_1_n_n_wf : DotDims.WF S1048576x64 S64x1 S1048576x1 [1] [0] [0] [1] [] []
  dot_S8192x1024_S1024x1024_S8192x1024_1_0_0_1_n_n_wf : DotDims.WF S8192x1024 S1024x1024 S8192x1024 [1] [0] [0] [1] [] []

variable [Facts₀]

def dot_S1048576x18_S18x64_S1048576x64_1_0_0_1_n_n : DotDims S1048576x18 S18x64 S1048576x64 where
  lhsContracting := [1]
  rhsContracting := [0]
  lhsNonContracting := [0]
  rhsNonContracting := [1]
  lhsBatch := []
  rhsBatch := []
  wf := dot_S1048576x18_S18x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  The function both programs compute, written once over plain coordinates.

  A point of the weight grid carries an 18-entry embedding `e`. The hypernetwork maps it through two sine
  layers and one linear layer,
      h¹_j = sin (30 · (Σ_i e_i · A¹_{i j} + b¹_j)),   h²_k = sin (30 · (Σ_j h¹_j · A²_{j k} + b²_k)),
      w    = Σ_k h²_k · a³_k + b³,
  and the 1024 × 1024 generated weights are these numbers laid out row-major: entry (q, k) is the weight of
  point 1024·q + k. The result is the affine map  out_{p q} = Σ_k x_{p k} · w_{1024 q + k} + bias_q.
  Everything is an extended real; `30` is the float word both programs print, never evaluated.
-/
import Idealize.ShloMosaic.PureOps.Ideal
import Idealize.ShloMosaic.Lib.ValueIdx

noncomputable section

open scoped BigOperators

namespace Cert.Spec

open Idealize.ShloMosaic Idealize.ShloMosaic.ValueIdx

/-- The scale of the sine layers: the float word of 30. -/
abbrev thirty : EReal := Ideal.ofBits .f32 0x41F00000#32

/-- One sine layer on one row: `sin (30 · (Σ_i a_i · A_{i j} + b_j))`. -/
def sinRow {K J : Nat} (a : Fin K → EReal) (A : Fin K → Fin J → EReal) (b : Fin J → EReal) : Fin J → EReal :=
  fun j => Ideal.sin (thirty * ((∑ i : Fin K, a i * A i j) + b j))

/-- The closing linear layer on one row: `Σ_k a_k · A_k + b`. -/
def linRow {K : Nat} (a : Fin K → EReal) (A : Fin K → EReal) (b : EReal) : EReal :=
  (∑ k : Fin K, a k * A k) + b

/-- The generated weight of one grid point from its embedding. -/
def weightOf (e : Fin 18 → EReal) (A1 : Fin 18 → Fin 64 → EReal) (b1 : Fin 64 → EReal)
    (A2 : Fin 64 → Fin 64 → EReal) (b2 : Fin 64 → EReal) (A3 : Fin 64 → EReal) (b3 : EReal) : EReal :=
  linRow (sinRow (sinRow e A1 b1) A2 b2) A3 b3

/-- The place of entry (q, k) of the 1024 × 1024 weight matrix in the row-major list of grid points. -/
def flat (q k : Fin 1024) : Fin 1048576 := ⟨1024 * q.val + k.val, by have := q.isLt; have := k.isLt; omega⟩

theorem flat_val (q k : Fin 1024) : (flat q k).val = 1024 * q.val + k.val := rfl

/-- The weight of every grid point, as the column [1048576, 1] the first kernel region writes, from the arrays
    that region is handed: the embeddings [1048576, 18], the three weight matrices already transposed
    ([18, 64], [64, 64], [64, 1]) and the three biases as rows ([1, 64], [1, 64], [1, 1]). -/
def weightColumn (E : (⟨2, ![1048576, 18]⟩ : Shape).Idx → EReal) (A1 : (⟨2, ![18, 64]⟩ : Shape).Idx → EReal)
    (b1 : (⟨2, ![1, 64]⟩ : Shape).Idx → EReal) (A2 : (⟨2, ![64, 64]⟩ : Shape).Idx → EReal)
    (b2 : (⟨2, ![1, 64]⟩ : Shape).Idx → EReal) (A3 : (⟨2, ![64, 1]⟩ : Shape).Idx → EReal)
    (b3 : (⟨2, ![1, 1]⟩ : Shape).Idx → EReal) : (⟨2, ![1048576, 1]⟩ : Shape).Idx → EReal :=
  fun i => weightOf (fun a => E (ix2 (i 0) a)) (fun a j => A1 (ix2 a j)) (fun j => b1 (ix2 0 j))
    (fun j k => A2 (ix2 j k)) (fun k => b2 (ix2 0 k)) (fun k => A3 (ix2 k 0)) (b3 (ix2 0 0))

/-- The second region's map on the arrays it is handed: `x` [8192, 1024], the weight matrix `W` [1024, 1024]
    and the bias row [1, 1024]:  out_{p q} = Σ_k x_{p k} · W_{q k} + bias_q. -/
def affine (x : (⟨2, ![8192, 1024]⟩ : Shape).Idx → EReal) (W : (⟨2, ![1024, 1024]⟩ : Shape).Idx → EReal)
    (bias : (⟨2, ![1, 1024]⟩ : Shape).Idx → EReal) : (⟨2, ![8192, 1024]⟩ : Shape).Idx → EReal :=
  fun i => (∑ k : Fin 1024, x (ix2 (i 0) k) * W (ix2 (i 1) k)) + bias (ix2 0 (i 1))

/-- The whole result from the nine argument arrays as launched. -/
def result (x : (⟨2, ![8192, 1024]⟩ : Shape).Idx → EReal) (E : (⟨2, ![1048576, 18]⟩ : Shape).Idx → EReal)
    (W1 : (⟨2, ![64, 18]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![1, 64]⟩ : Shape).Idx → EReal) (b3 : (⟨1, ![1]⟩ : Shape).Idx → EReal)
    (bias : (⟨1, ![1024]⟩ : Shape).Idx → EReal) : (⟨2, ![8192, 1024]⟩ : Shape).Idx → EReal :=
  fun i => (∑ k : Fin 1024, x (ix2 (i 0) k) *
      weightOf (fun a => E (ix2 (flat (i 1) k) a)) (fun a j => W1 (ix2 j a)) (fun j => b1 (ix1 j))
        (fun j k' => W2 (ix2 k' j)) (fun k' => b2 (ix1 k')) (fun k' => W3 (ix2 0 k')) (b3 (ix1 0)))
    + bias (ix1 (i 1))

end Cert.Spec

end
-- ==== Proof.RefValue.lean ====
/-
  The reference program computes the specification.

  The reference is a chain of 29 array operations. Read at one index, every operation is a function of its
  operands at indices computed from that one: a transposition swaps the two coordinates, a broadcast forgets
  the added ones, the row-major reshape of the column [1048576, 1] to [1024, 1024] sends (q, k) to 1024·q + k,
  a contraction is the sum over the contracted coordinate, and the arithmetic is pointwise. Composing these
  readings layer by layer gives, at the extended reals, exactly the expressions of the specification:
  a sine layer `sin (30 · (Σ_i a_i · A_{i j} + b_j))` twice, the closing linear layer, and the affine map.
  No step uses more than the identification of composed index maps with plain coordinates.
-/
import proofs.«121782_j13529146982441_1_alg».proof.Proof.Gen.ReferenceIdeal.Read
import proofs.«121782_j13529146982441_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The composed index maps at plain coordinates -/

/-- The left operand of the first contraction is read at row `n`, column `a`. -/
theorem lidx_v1 (n : Fin 1048576) (j : Fin 64) (a : Fin 18) : lidx_main_v1 (ix2 n j) a = ix2 n a :=
  funext fun d => Fin.ext (by match d with | ⟨0, _⟩ => rfl | ⟨1, _⟩ => rfl)

/-- The right operand of the first contraction, a transposed matrix, is read at row `j`, column `a` of the matrix as given. -/
theorem ridx_v1 (n : Fin 1048576) (j : Fin 64) (a : Fin 18) : idx_main_v0 (ridx_main_v1 (ix2 n j) a) = ix2 j a :=
  funext fun d => Fin.ext (by match d with | ⟨0, _⟩ => rfl | ⟨1, _⟩ => rfl)

/-- The first bias, laid over the rows, is read at `j`. -/
theorem bidx_v3 (n : Fin 1048576) (j : Fin 64) : idx_main_v2 (idx_main_v3 (ix2 n j)) = ix1 j :=
  funext fun d => Fin.ext (by match d with | ⟨0, _⟩ => rfl)

/-! ## The first sine layer -/

theorem sin1 (x1 : (⟨S1048576x18, .f32⟩ : BufTy).Contents (Elt Ideal)) (x2 : (⟨S64x18, .f32⟩ : BufTy).Contents (Elt Ideal))
    (x3 : (⟨S64, .f32⟩ : BufTy).Contents (Elt Ideal)) (n : Fin 1048576) (j : Fin 64) :
    val_main_v7 (F := Ideal) x1 x2 x3 (ix2 n j)
      = Cert.Spec.sinRow (fun a => x1 (ix2 n a)) (fun a j' => x2 (ix2 j' a)) (fun j' => x3 (ix1 j')) j := by
  rw [val_main_v7_apply, val_main_v6_apply, val_main_v5_apply, val_main_cst_apply, val_main_v4_apply, val_main_v1_apply,
    val_main_v3_apply, val_main_v2_apply]
  simp only [val_main_v0_apply, lidx_v1, ridx_v1, bidx_v3]
  rfl

/-! ## The second sine layer -/

/-- The left operand of the second contraction, the first layer's output, is read at row `n`, column `j`. -/
theorem lidx_v9 (n : Fin 1048576) (k : Fin 64) (j : Fin 64) : lidx_main_v9 (ix2 n k) j = ix2 n j :=
  funext fun d => Fin.ext (by match d with | ⟨0, _⟩ => rfl | ⟨1, _⟩ => rfl)

/-- The right operand of the second contraction, a transposed matrix, is read at row `k`, column `j` of the matrix as given. -/
theorem ridx_v9 (n : Fin 1048576) (k : Fin 64) (j : Fin 64) : idx_main_v8 (ridx_main_v9 (ix2 n k) j) = ix2 k j :=
  funext fun d => Fin.ext (by match d with | ⟨0, _⟩ => rfl | ⟨1, _⟩ => rfl)

/-- The second bias, laid over the rows, is read at `k`. -/
theorem bidx_v11 (n : Fin 1048576) (k : Fin 64) : idx_main_v10 (idx_main_v11 (ix2 n k)) = ix1 k :=
  funext fun d => Fin.ext (by match d with | ⟨0, _⟩ => rfl)

theorem sin2 (x1 : (⟨S1048576x18, .f32⟩ : BufTy).Contents (Elt Ideal)) (x2 : (⟨S64x18, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (n : Fin 1048576) (k : Fin 64) :
    val_main_v15 (F := Ideal) x1 x2 x3 x4 x5 (ix2 n k)
      = Cert.Spec.sinRow (Cert.Spec.sinRow (fun a => x1 (ix2 n a)) (fun a j' => x2 (ix2 j' a)) (fun j' => x3 (ix1 j')))
          (fun j' k' => x4 (ix2 k' j')) (fun k' => x5 (ix1 k')) k := by
  rw [val_main_v15_apply, val_main_v14_apply, val_main_v13_apply, val_main_cst_0_apply, val_main_v12_apply, val_main_v9_apply,
    val_main_v11_apply, val_main_v10_apply]
  simp only [val_main_v8_apply, lidx_v9, ridx_v9, bidx_v11, sin1]
  rfl

/-! ## The weight of a grid point -/

/-- The left operand of the closing contraction, the second layer's output, is read at row `n`, column `k`. -/
theorem lidx_v17 (n : Fin 1048576) (k : Fin 64) : lidx_main_v17 (ix2 n (0 : Fin 1)) k = ix2 n k :=
  funext fun d => Fin.ext (by match d with | ⟨0, _⟩ => rfl | ⟨1, _⟩ => rfl)

/-- The right operand of the closing contraction, a transposed row, is read at column `k` of the row as given. -/
theorem ridx_v17 (n : Fin 1048576) (k : Fin 64) : idx_main_v16 (ridx_main_v17 (ix2 n (0 : Fin 1)) k) = ix2 (0 : Fin 1) k :=
  funext fun d => Fin.ext (by match d with | ⟨0, _⟩ => rfl | ⟨1, _⟩ => rfl)

/-- The closing bias, one number laid over the column, is read at its only place. -/
theorem bidx_v19 (n : Fin 1048576) : idx_main_v18 (idx_main_v19 (ix2 n (0 : Fin 1))) = ix1 (0 : Fin 1) :=
  funext fun d => Fin.ext (by match d with | ⟨0, _⟩ => rfl)

theorem weight (x1 : (⟨S1048576x18, .f32⟩ : BufTy).Contents (Elt Ideal)) (x2 : (⟨S64x18, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 : (⟨S1x64, .f32⟩ : BufTy).Contents (Elt Ideal))
    (x7 : (⟨S1, .f32⟩ : BufTy).Contents (Elt Ideal)) (n : Fin 1048576) :
    val_main_v20 (F := Ideal) x1 x2 x3 x4 x5 x6 x7 (ix2 n (0 : Fin 1))
      = Cert.Spec.weightOf (fun a => x1 (ix2 n a)) (fun a j' => x2 (ix2 j' a)) (fun j' => x3 (ix1 j'))
          (fun j' k' => x4 (ix2 k' j')) (fun k' => x5 (ix1 k')) (fun k' => x6 (ix2 (0 : Fin 1) k')) (x7 (ix1 (0 : Fin 1))) := by
  rw [val_main_v20_apply, val_main_v17_apply, val_main_v19_apply, val_main_v18_apply]
  simp only [val_main_v16_apply, lidx_v17, ridx_v17, bidx_v19, sin2]
  rfl

/-! ## The affine map over the generated weights -/

/-- The left operand of the last contraction is read at row `p`, column `k`. -/
theorem lidx_v23 (p : Fin 8192) (q k : Fin 1024) : lidx_main_v23 (ix2 p q) k = ix2 p k :=
  funext fun d => Fin.ext (by match d with | ⟨0, _⟩ => rfl | ⟨1, _⟩ => rfl)

/-- The right operand of the last contraction is the weight column reshaped row-major and transposed: its entry
    (k, q) is the weight of the grid point `1024·q + k`. -/
theorem ridx_v23 (p : Fin 8192) (q k : Fin 1024) :
    idx_main_v21 (idx_main_v22 (ridx_main_v23 (ix2 p q) k)) = ix2 (Cert.Spec.flat q k) (0 : Fin 1) :=
  funext fun d => Fin.ext (by
    match d with
    | ⟨0, _⟩ =>
      show (q.val * 1024 + k.val) / 1 = 1024 * q.val + k.val
      rw [Nat.div_one]; omega
    | ⟨1, _⟩ => rfl)

/-- The last bias, laid over the rows, is read at `q`. -/
theorem bidx_v25 (p : Fin 8192) (q : Fin 1024) : idx_main_v24 (idx_main_v25 (ix2 p q)) = ix1 q :=
  funext fun d => Fin.ext (by match d with | ⟨0, _⟩ => rfl)

/-- The reference program's result is the specification. -/
theorem ref_eq (x0 : (⟨S8192x1024, .f32⟩ : BufTy).Contents (Elt Ideal)) (x1 : (⟨S1048576x18, .f32⟩ : BufTy).Contents (Elt Ideal)) (x2 : (⟨S64x18, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S1x64, .f32⟩ : BufTy).Contents (Elt Ideal)) (x7 : (⟨S1, .f32⟩ : BufTy).Contents (Elt Ideal)) (x8 : (⟨S1024, .f32⟩ : BufTy).Contents (Elt Ideal)) :
    val_main_v26 (F := Ideal) x0 x1 x2 x3 x4 x5 x6 x7 x8 = Cert.Spec.result x0 x1 x2 x3 x4 x5 x6 x7 x8 := by
  funext i
  obtain ⟨p, q, rfl⟩ : ∃ (p : Fin 8192) (q : Fin 1024), i = ix2 p q := ⟨i 0, i 1, eq_ix2 i⟩
  rw [val_main_v26_apply, val_main_v23_apply, val_main_v25_apply, val_main_v24_apply]
  simp only [val_main_v22_apply, val_main_v21_apply, lidx_v23, ridx_v23, bidx_v25, weight]
  rfl

end Cert.ReferenceIdeal.RefValue

end
-- ==== Proof.HostStretch.lean ====
/-
  The two stretches of host operations around the kernel regions, read at an index.

  Before the first region the host lays the small parameters out as the region wants them: each weight matrix
  transposed (entry (a, j) of the laid-out matrix is entry (j, a) of the argument) and each bias vector as a one-row
  matrix (entry (0, j) is entry j). Between the regions it reshapes the column of 1048576 weights row-major into the
  1024 × 1024 matrix (entry (q, k) is the weight of point 1024·q + k) and lays the output bias out as a row. The
  embeddings and `x` reach their regions as launched.
-/
import proofs.«121782_j13529146982441_1_alg».proof.Proof.Gen.KernelIdeal.Frame
import proofs.«121782_j13529146982441_1_alg».proof.Proof.Spec
import Idealize.ShloMosaic.Lib.StableHlo.Run
import Idealize.ShloMosaic.Lib.Pipeline.Value
import Idealize.ShloMosaic.Lib.ValueIdx

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## Layout operations of these shapes at an index -/

/-- A transposed matrix at (a, j) is the matrix at (j, a). -/
theorem transpose_ix2 {α : Type} {p q : Nat} (x : (⟨2, ![q, p]⟩ : Shape).Idx → α)
    (h : (⟨2, ![q, p]⟩ : Shape).Transposes [1, 0] ⟨2, ![p, q]⟩) (a : Fin p) (j : Fin q) :
    transpose (⟨2, ![p, q]⟩ : Shape) [1, 0] x h (ix2 a j) = x (ix2 j a) :=
  transpose_apply [1, 0] x h (ix2 a j) (ix2 j a) (fun b => match b with
    | ⟨0, _⟩ => rfl
    | ⟨1, _⟩ => rfl)

/-- A vector cast to a one-row matrix, at (0, j), is the vector at j. -/
theorem row_ix2 {α : Type} {n : Nat} (x : (⟨1, ![n]⟩ : Shape).Idx → α)
    (h : (⟨1, ![n]⟩ : Shape).ShapeCasts ⟨2, ![1, n]⟩) (j : Fin n) :
    shapeCast (⟨2, ![1, n]⟩ : Shape) x h (ix2 0 j) = x (ix1 j) :=
  shapeCast_apply x h (ix2 0 j) (ix1 j) (by
    rw [Shape.rowMajor_val_one, Shape.rowMajor_val_two]
    show j.val = 0 * n + j.val
    omega)

/-- The column of 1048576 numbers cast row-major to 1024 × 1024, at (q, k), is the column at 1024·q + k. -/
theorem grid_ix2 {α : Type} (y : (⟨2, ![1048576, 1]⟩ : Shape).Idx → α)
    (h : (⟨2, ![1048576, 1]⟩ : Shape).ShapeCasts ⟨2, ![1024, 1024]⟩) (q k : Fin 1024) :
    shapeCast (⟨2, ![1024, 1024]⟩ : Shape) y h (ix2 q k) = y (ix2 (Cert.Spec.flat q k) 0) :=
  shapeCast_apply y h (ix2 q k) (ix2 (Cert.Spec.flat q k) 0) (by
    rw [Shape.rowMajor_val_two, Shape.rowMajor_val_two]
    show (1024 * q.val + k.val) * 1 + 0 = q.val * 1024 + k.val
    omega)

/-! ## The buffers the regions are entered with -/

variable (m : (ℓ : Loc nD τ sig) → Buf (Elt F) ℓ) (ρ : Dev nD → PrngReg)

/-- The first region finds the embeddings as launched, -/
theorem V1_arg1 (c : Dev nD) : V1 m ρ c main_arg1 = m ((c : Thread nD τ).loc main_arg1) := by
  show StableHlo.after hostOps0 (W0 m ρ c) (Proc.devRef .tc main_arg1) = _
  after_results

/-- the first weight matrix transposed, -/
theorem V1_v0 (c : Dev nD) :
    V1 m ρ c main_v0 = transpose S18x64 [1, 0] (m ((c : Thread nD τ).loc main_arg2)) transposes_S64x18_S18x64_1_0 := by
  show StableHlo.after hostOps0 (W0 m ρ c) (Proc.devRef .tc main_v0) = _
  after_results

/-- the first bias as a row, -/
theorem V1_v1 (c : Dev nD) :
    V1 m ρ c main_v1 = shapeCast S1x64 (m ((c : Thread nD τ).loc main_arg3)) shapeCasts_S64_S1x64 := by
  show StableHlo.after hostOps0 (W0 m ρ c) (Proc.devRef .tc main_v1) = _
  after_results
  rfl

/-- the second weight matrix transposed, -/
theorem V1_v2 (c : Dev nD) :
    V1 m ρ c main_v2 = transpose S64x64 [1, 0] (m ((c : Thread nD τ).loc main_arg4)) transposes_S64x64_S64x64_1_0 := by
  show StableHlo.after hostOps0 (W0 m ρ c) (Proc.devRef .tc main_v2) = _
  after_results

/-- the second bias as a row, -/
theorem V1_v3 (c : Dev nD) :
    V1 m ρ c main_v3 = shapeCast S1x64 (m ((c : Thread nD τ).loc main_arg5)) shapeCasts_S64_S1x64 := by
  show StableHlo.after hostOps0 (W0 m ρ c) (Proc.devRef .tc main_v3) = _
  after_results
  rfl

/-- the last layer's weights as a column (the one-row argument transposed), -/
theorem V1_v4 (c : Dev nD) :
    V1 m ρ c main_v4 = transpose S64x1 [1, 0] (m ((c : Thread nD τ).loc main_arg6)) transposes_S1x64_S64x1_1_0 := by
  show StableHlo.after hostOps0 (W0 m ρ c) (Proc.devRef .tc main_v4) = _
  after_results

/-- and the last bias as a 1 × 1 matrix. -/
theorem V1_v5 (c : Dev nD) :
    V1 m ρ c main_v5 = shapeCast S1x1 (m ((c : Thread nD τ).loc main_arg7)) shapeCasts_S1_S1x1 := by
  show StableHlo.after hostOps0 (W0 m ρ c) (Proc.devRef .tc main_v5) = _
  after_results
  rfl

/-- The second region finds `x` as launched, -/
theorem V3_arg0 (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- the column the first region left, cast to the 1024 × 1024 matrix, -/
theorem V3_v7 (c : Dev nD) :
    V3 m ρ c main_v7 = shapeCast S1024x1024 ((dat0 (V1 m ρ) c).arrAt 7 cfg0.N) shapeCasts_S1048576x1_S1024x1024 := by
  show StableHlo.after hostOps1 (W2 m ρ c) (Proc.devRef .tc main_v7) = _
  after_results
  rw [show W2 m ρ c (Proc.devRef .tc main_v6) = (dat0 (V1 m ρ) c).arrAt 7 cfg0.N from W2_arr m ρ c 7]
  rfl

/-- and the output bias as a row. -/
theorem V3_v8 (c : Dev nD) :
    V3 m ρ c main_v8 = shapeCast S1x1024 (m ((c : Thread nD τ).loc main_arg8)) shapeCasts_S1024_S1x1024 := by
  show StableHlo.after hostOps1 (W2 m ρ c) (Proc.devRef .tc main_v8) = _
  after_results
  rw [W2_of_ne m ρ c main_arg8 (by decide)]
  show shapeCast S1x1024 (StableHlo.after hostOps0 (W0 m ρ c) (Proc.devRef .tc main_arg8)) _ = _
  after_results

/-- The result buffer ends at what the second region's write-backs leave. -/
theorem W4_v9 (c : Dev nD) : W4 m ρ c (Proc.devRef .tc main_v9) = (dat1 (V3 m ρ) c).arrAt 3 cfg1.N :=
  W4_arr m ρ c 3

end Cert.KernelIdeal.Fold

end
-- ==== Proof.SpecCompose.lean ====
/-
  The two regions composed. If the matrix the second region is handed holds, at (q, k), the weight the first
  region computed for grid point 1024·q + k, and the small parameters the first region is handed are the
  arguments laid out (matrices transposed, vectors as rows), then the second region's affine map of that matrix
  is the whole result as a function of the nine arguments. Nothing but unfolding: both sides are the same sums.
-/
import proofs.«121782_j13529146982441_1_alg».proof.Proof.Spec

noncomputable section

open scoped BigOperators

namespace Cert.Spec

open Idealize.ShloMosaic Idealize.ShloMosaic.ValueIdx

theorem affine_of_weightColumn
    (x : (⟨2, ![8192, 1024]⟩ : Shape).Idx → EReal) (E : (⟨2, ![1048576, 18]⟩ : Shape).Idx → EReal)
    (W1 : (⟨2, ![64, 18]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![1, 64]⟩ : Shape).Idx → EReal) (b3 : (⟨1, ![1]⟩ : Shape).Idx → EReal)
    (bias : (⟨1, ![1024]⟩ : Shape).Idx → EReal)
    (A1 : (⟨2, ![18, 64]⟩ : Shape).Idx → EReal) (r1 : (⟨2, ![1, 64]⟩ : Shape).Idx → EReal)
    (A2 : (⟨2, ![64, 64]⟩ : Shape).Idx → EReal) (r2 : (⟨2, ![1, 64]⟩ : Shape).Idx → EReal)
    (A3 : (⟨2, ![64, 1]⟩ : Shape).Idx → EReal) (r3 : (⟨2, ![1, 1]⟩ : Shape).Idx → EReal)
    (Wm : (⟨2, ![1024, 1024]⟩ : Shape).Idx → EReal) (rb : (⟨2, ![1, 1024]⟩ : Shape).Idx → EReal)
    (hA1 : ∀ (a : Fin 18) (j : Fin 64), A1 (ix2 a j) = W1 (ix2 j a))
    (hr1 : ∀ j : Fin 64, r1 (ix2 0 j) = b1 (ix1 j))
    (hA2 : ∀ (j k : Fin 64), A2 (ix2 j k) = W2 (ix2 k j))
    (hr2 : ∀ k : Fin 64, r2 (ix2 0 k) = b2 (ix1 k))
    (hA3 : ∀ k : Fin 64, A3 (ix2 k 0) = W3 (ix2 0 k))
    (hr3 : r3 (ix2 0 0) = b3 (ix1 0))
    (hWm : ∀ q k : Fin 1024, Wm (ix2 q k) = weightColumn E A1 r1 A2 r2 A3 r3 (ix2 (flat q k) 0))
    (hrb : ∀ q : Fin 1024, rb (ix2 0 q) = bias (ix1 q)) :
    affine x Wm rb = result x E W1 b1 W2 b2 W3 b3 bias := by
  funext i
  obtain ⟨p, q, rfl⟩ : ∃ (p : Fin 8192) (q : Fin 1024), i = ix2 p q := ⟨i 0, i 1, eq_ix2 i⟩
  show (∑ k : Fin 1024, x (ix2 p k) * Wm (ix2 q k)) + rb (ix2 0 q)
    = (∑ k : Fin 1024, x (ix2 p k) *
        weightOf (fun a => E (ix2 (flat q k) a)) (fun a j => W1 (ix2 j a)) (fun j => b1 (ix1 j))
          (fun j k' => W2 (ix2 k' j)) (fun k' => b2 (ix1 k')) (fun k' => W3 (ix2 0 k')) (b3 (ix1 0)))
      + bias (ix1 q)
  rw [hrb q]
  refine congrArg (· + bias (ix1 q)) (Finset.sum_congr rfl fun k _ => ?_)
  rw [hWm q k]
  show x (ix2 p k) * weightOf (fun a => E (ix2 (flat q k) a)) (fun a j => A1 (ix2 a j)) (fun j => r1 (ix2 0 j))
      (fun j k' => A2 (ix2 j k')) (fun k' => r2 (ix2 0 k')) (fun k' => A3 (ix2 k' 0)) (r3 (ix2 0 0)) = _
  simp only [hA1, hr1, hA2, hr2, hA3, hr3]

end Cert.Spec

end
-- ==== Proof.HyperMatmul.lean ====
/-
  The arithmetic one grid point's body performs, read one entry at a time.

  The body holds a block of 4096 embeddings (rows of 18 numbers) and the three layers' matrices and bias rows.
  Each of its three products contracts the left operand's columns against the right operand's rows into the
  zero accumulator, so entry (p, c) of a product is the plain sum  Σ_k l_{p k} · r_{k c}.  Between the products
  a bias row is added to every row, the sum is scaled by thirty and the sine is taken, entry by entry. Hence row
  p of what the body stores is the hypernetwork's weight of the embedding in row p of the block:
      h¹ = sin (30 · (e · A¹ + b¹)),   h² = sin (30 · (h¹ · A² + b²)),   w = h² · a³ + b³.
-/
import proofs.«121782_j13529146982441_1_alg».proof.Proof.Gen.KernelIdeal.Skeleton
import proofs.«121782_j13529146982441_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HyperMatmul

open Cert.KernelIdeal Cert.KernelIdeal.Gen Idealize.ShloMosaic Idealize.ShloMosaic.TcCoe Idealize.SL.Sem Idealize.ShloMosaic.ValueIdx

/-! ## The three products, entry by entry

For each product: where its dimension numbers send an output index and a contraction index in the two operands
(the left operand keeps the output's row and takes the contraction coordinate as its column; the right operand takes
the contraction coordinate as its row and keeps the output's column), then the entry as a sum over the contraction
coordinate. -/

/-! ### Embeddings [4096, 18] against the first matrix [18, 64] -/

theorem embed_lhs_0 (i : S4096x64.Idx) (q : dot_S4096x18_S18x64_S4096x64_1_0_0_1_n_n.contr.Idx) :
    (dot_S4096x18_S18x64_S4096x64_1_0_0_1_n_n.lhsIdx i q 0).val = (i 0).val := by
  unfold DotDims.lhsIdx
  rw [dif_neg (show ¬(0 : Fin S4096x18.rank) ∈ dot_S4096x18_S18x64_S4096x64_1_0_0_1_n_n.lhsBatch by decide), dif_pos (show (0 : Fin S4096x18.rank) ∈ dot_S4096x18_S18x64_S4096x64_1_0_0_1_n_n.lhsNonContracting by decide)]
  rfl
theorem embed_lhs_1 (i : S4096x64.Idx) (q : dot_S4096x18_S18x64_S4096x64_1_0_0_1_n_n.contr.Idx) :
    (dot_S4096x18_S18x64_S4096x64_1_0_0_1_n_n.lhsIdx i q 1).val = (q ⟨0, by decide⟩).val :=
  dot_S4096x18_S18x64_S4096x64_1_0_0_1_n_n.lhsIdx_val_of_single rfl i q
theorem embed_rhs_0 (i : S4096x64.Idx) (q : dot_S4096x18_S18x64_S4096x64_1_0_0_1_n_n.contr.Idx) :
    (dot_S4096x18_S18x64_S4096x64_1_0_0_1_n_n.rhsIdx i q 0).val = (q ⟨0, by decide⟩).val :=
  dot_S4096x18_S18x64_S4096x64_1_0_0_1_n_n.rhsIdx_val_of_single rfl i q
theorem embed_rhs_1 (i : S4096x64.Idx) (q : dot_S4096x18_S18x64_S4096x64_1_0_0_1_n_n.contr.Idx) :
    (dot_S4096x18_S18x64_S4096x64_1_0_0_1_n_n.rhsIdx i q 1).val = (i 1).val := by
  unfold DotDims.rhsIdx
  rw [dif_neg (show ¬(1 : Fin S18x64.rank) ∈ dot_S4096x18_S18x64_S4096x64_1_0_0_1_n_n.rhsBatch by decide), dif_pos (show (1 : Fin S18x64.rank) ∈ dot_S4096x18_S18x64_S4096x64_1_0_0_1_n_n.rhsNonContracting by decide)]
  rfl

/-- Entry (p, c) of the first product: row p of the embeddings against column c of the first matrix. -/
theorem embed_product (l : FVec Ideal S4096x18 .f32) (r : FVec Ideal S18x64 .f32) (p : Fin 4096) (c : Fin 64) :
    matmul dot_S4096x18_S18x64_S4096x64_1_0_0_1_n_n (some .fp32) l r (constant (F := Ideal) S4096x64 .f32 0x00000000#32) (ix2 p c)
      = ∑ k : Fin 18, l (ix2 p k) * r (ix2 k c) := by
  refine (Ideal.matmul_constant_zero_apply dot_S4096x18_S18x64_S4096x64_1_0_0_1_n_n (some .fp32) l r (ix2 p c)).trans ?_
  rw [← Equiv.sum_comp (contrEquiv1 dot_S4096x18_S18x64_S4096x64_1_0_0_1_n_n 18 rfl rfl).symm]
  refine Finset.sum_congr rfl fun k _ => ?_
  have hk := contrEquiv1_symm_val dot_S4096x18_S18x64_S4096x64_1_0_0_1_n_n 18 rfl rfl k
  have el : dot_S4096x18_S18x64_S4096x64_1_0_0_1_n_n.lhsIdx (ix2 p c) ((contrEquiv1 dot_S4096x18_S18x64_S4096x64_1_0_0_1_n_n 18 rfl rfl).symm k) = ix2 p k := funext fun a => Fin.ext (by
    match a with
    | ⟨0, _⟩ => exact embed_lhs_0 _ _
    | ⟨1, _⟩ => exact (embed_lhs_1 _ _).trans hk)
  have er : dot_S4096x18_S18x64_S4096x64_1_0_0_1_n_n.rhsIdx (ix2 p c) ((contrEquiv1 dot_S4096x18_S18x64_S4096x64_1_0_0_1_n_n 18 rfl rfl).symm k) = ix2 k c := funext fun a => Fin.ext (by
    match a with
    | ⟨0, _⟩ => exact (embed_rhs_0 _ _).trans hk
    | ⟨1, _⟩ => exact embed_rhs_1 _ _)
  rw [el, er]

/-! ### The first hidden layer [4096, 64] against the second matrix [64, 64] -/

theorem hidden_lhs_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem hidden_lhs_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem hidden_rhs_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem hidden_rhs_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- Entry (p, c) of the second product: row p of the first hidden layer against column c of the second matrix. -/
theorem hidden_product (l : FVec Ideal S4096x64 .f32) (r : FVec Ideal S64x64 .f32) (p : Fin 4096) (c : Fin 64) :
    matmul dot_S4096x64_S64x64_S4096x64_1_0_0_1_n_n (some .fp32) l r (constant (F := Ideal) S4096x64 .f32 0x00000000#32) (ix2 p c)
      = ∑ k : Fin 64, l (ix2 p k) * r (ix2 k c) := by
  refine (Ideal.matmul_constant_zero_apply dot_S4096x64_S64x64_S4096x64_1_0_0_1_n_n (some .fp32) l r (ix2 p c)).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p c) ((contrEquiv1 dot_S4096x64_S64x64_S4096x64_1_0_0_1_n_n 64 rfl rfl).symm k) = ix2 p k := funext fun a => Fin.ext (by
    match a with
    | ⟨0, _⟩ => exact hidden_lhs_0 _ _
    | ⟨1, _⟩ => exact (hidden_lhs_1 _ _).trans hk)
  have er : dot_S4096x64_S64x64_S4096x64_1_0_0_1_n_n.rhsIdx (ix2 p c) ((contrEquiv1 dot_S4096x64_S64x64_S4096x64_1_0_0_1_n_n 64 rfl rfl).symm k) = ix2 k c := funext fun a => Fin.ext (by
    match a with
    | ⟨0, _⟩ => exact (hidden_rhs_0 _ _).trans hk
    | ⟨1, _⟩ => exact hidden_rhs_1 _ _)
  rw [el, er]

/-! ### The second hidden layer [4096, 64] against the closing column [64, 1] -/

theorem closing_lhs_0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem closing_lhs_1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
theorem closing_rhs_0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
theorem closing_rhs_1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl

/-- Entry (p, c) of the third product: row p of the second hidden layer against the closing column. -/
theorem closing_product (l : FVec Ideal S4096x64 .f32) (r : FVec Ideal S64x1 .f32) (p : Fin 4096) (c : Fin 1) :
    matmul dot_S4096x64_S64x1_S4096x1_1_0_0_1_n_n (some .fp32) l r (constant (F := Ideal) S4096x1 .f32 0x00000000#32) (ix2 p c)
      = ∑ k : Fin 64, l (ix2 p k) * r (ix2 k c) := by
  refine (Ideal.matmul_constant_zero_apply dot_S4096x64_S64x1_S4096x1_1_0_0_1_n_n (some .fp32) l r (ix2 p c)).trans ?_
  rw [← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 p c) ((contrEquiv1 dot_S4096x64_S64x1_S4096x1_1_0_0_1_n_n 64 rfl rfl).symm k) = ix2 p k := funext fun a => Fin.ext (by
    match a with
    | ⟨0, _⟩ => exact closing_lhs_0 _ _
    | ⟨1, _⟩ => exact (closing_lhs_1 _ _).trans hk)
  have er : dot_S4096x64_S64x1_S4096x1_1_0_0_1_n_n.rhsIdx (ix2 p c) ((contrEquiv1 dot_S4096x64_S64x1_S4096x1_1_0_0_1_n_n 64 rfl rfl).symm k) = ix2 k c := funext fun a => Fin.ext (by
    match a with
    | ⟨0, _⟩ => exact (closing_rhs_0 _ _).trans hk
    | ⟨1, _⟩ => exact closing_rhs_1 _ _)
  rw [el, er]

/-! ## The layers

The body's value is a nest of these operations; the two sine layers are named so that the nest reads as the network. -/

/-- The first sine layer as the body computes it on a block: the product with the first matrix, the bias row added to
    every row, the scale, the sine. -/
def hidden1 (x0 : Vec Ideal S4096x18 .f32) (x1 : Vec Ideal S18x64 .f32) (x2 : Vec Ideal S1x64 .f32) : FVec Ideal S4096x64 .f32 :=
  sin (mulf (broadcast S4096x64 (Scalar.ofBits (F := Ideal) .f32 0x41F00000#32))
    (addf (matmul (φ₁ := .f32) (φ₂ := .f32) dot_S4096x18_S18x64_S4096x64_1_0_0_1_n_n (some .fp32) x0 (shapeCast S18x64 x1 shapeCasts_S18x64_S18x64) (constant (F := Ideal) S4096x64 .f32 0x00000000#32))
      (broadcastTo S4096x64 (shapeCast S1x64 x2 shapeCasts_S1x64_S1x64) broadcasts_S1x64_S4096x64)))

/-- The second sine layer on a block of hidden rows: the same four steps with the second matrix and bias row. -/
def hidden2 (h : FVec Ideal S4096x64 .f32) (x3 : Vec Ideal S64x64 .f32) (x4 : Vec Ideal S1x64 .f32) : FVec Ideal S4096x64 .f32 :=
  sin (mulf (broadcast S4096x64 (Scalar.ofBits (F := Ideal) .f32 0x41F00000#32))
    (addf (matmul (φ₁ := .f32) (φ₂ := .f32) dot_S4096x64_S64x64_S4096x64_1_0_0_1_n_n (some .fp32) h (shapeCast S64x64 x3 shapeCasts_S64x64_S64x64) (constant (F := Ideal) S4096x64 .f32 0x00000000#32))
      (broadcastTo S4096x64 (shapeCast S1x64 x4 shapeCasts_S1x64_S1x64) broadcasts_S1x64_S4096x64)))

/-- The body's value is the closing linear layer on the second sine layer of the first: the printed operations in their
    printed order. -/
theorem pay_eq (x0 : Vec Ideal S4096x18 .f32) (x1 : Vec Ideal S18x64 .f32) (x2 : Vec Ideal S1x64 .f32) (x3 : Vec Ideal S64x64 .f32) (x4 : Vec Ideal S1x64 .f32) (x5 : Vec Ideal S64x1 .f32) (x6 : Vec Ideal S1x1 .f32) :
    k0_pay1 (F := Ideal) x0 x1 x2 x3 x4 x5 x6
      = addf (matmul (φ₁ := .f32) (φ₂ := .f32) dot_S4096x64_S64x1_S4096x1_1_0_0_1_n_n (some .fp32) (hidden2 (hidden1 x0 x1 x2) x3 x4) (shapeCast S64x1 x5 shapeCasts_S64x1_S64x1) (constant (F := Ideal) S4096x1 .f32 0x00000000#32))
          (broadcastTo S4096x1 (shapeCast S1x1 x6 shapeCasts_S1x1_S1x1) broadcasts_S1x1_S4096x1) := rfl

/-- Entry (r, j) of the first sine layer is the specification's sine layer on row r of the embeddings. -/
theorem hidden1_apply (x0 : Vec Ideal S4096x18 .f32) (x1 : Vec Ideal S18x64 .f32) (x2 : Vec Ideal S1x64 .f32) (r : Fin 4096) (j : Fin 64) :
    hidden1 x0 x1 x2 (ix2 r j) = Cert.Spec.sinRow (fun a => x0 (ix2 r a)) (fun a j => x1 (ix2 a j)) (fun j => x2 (ix2 0 j)) j := by
  show Ideal.sin (Cert.Spec.thirty * (matmul (φ₁ := .f32) (φ₂ := .f32) dot_S4096x18_S18x64_S4096x64_1_0_0_1_n_n (some .fp32) x0 (shapeCast S18x64 x1 shapeCasts_S18x64_S18x64) (constant (F := Ideal) S4096x64 .f32 0x00000000#32) (ix2 r j)
    + broadcastTo S4096x64 (shapeCast S1x64 x2 shapeCasts_S1x64_S1x64) broadcasts_S1x64_S4096x64 (ix2 r j))) = _
  rw [shapeCast_self, shapeCast_self, embed_product, broadcastTo_1b_ab_apply]
  rfl

/-- Entry (r, k) of the second sine layer is the specification's sine layer on row r of the hidden block. -/
theorem hidden2_apply (h : FVec Ideal S4096x64 .f32) (x3 : Vec Ideal S64x64 .f32) (x4 : Vec Ideal S1x64 .f32) (r : Fin 4096) (k : Fin 64) :
    hidden2 h x3 x4 (ix2 r k) = Cert.Spec.sinRow (fun j => h (ix2 r j)) (fun j k => x3 (ix2 j k)) (fun k => x4 (ix2 0 k)) k := by
  show Ideal.sin (Cert.Spec.thirty * (matmul (φ₁ := .f32) (φ₂ := .f32) dot_S4096x64_S64x64_S4096x64_1_0_0_1_n_n (some .fp32) h (shapeCast S64x64 x3 shapeCasts_S64x64_S64x64) (constant (F := Ideal) S4096x64 .f32 0x00000000#32) (ix2 r k)
    + broadcastTo S4096x64 (shapeCast S1x64 x4 shapeCasts_S1x64_S1x64) broadcasts_S1x64_S4096x64 (ix2 r k))) = _
  rw [shapeCast_self, shapeCast_self, hidden_product, broadcastTo_1b_ab_apply]
  rfl

/-- ROW r OF WHAT THE BODY STORES is the weight of the embedding in row r of its block. -/
theorem pay_apply (x0 : Vec Ideal S4096x18 .f32) (x1 : Vec Ideal S18x64 .f32) (x2 : Vec Ideal S1x64 .f32) (x3 : Vec Ideal S64x64 .f32) (x4 : Vec Ideal S1x64 .f32) (x5 : Vec Ideal S64x1 .f32) (x6 : Vec Ideal S1x1 .f32) (r : Fin 4096) :
    k0_pay1 (F := Ideal) x0 x1 x2 x3 x4 x5 x6 (ix2 r 0) = Cert.Spec.weightOf (fun a => x0 (ix2 r a)) (fun a j => x1 (ix2 a j)) (fun j => x2 (ix2 0 j)) (fun j k => x3 (ix2 j k)) (fun k => x4 (ix2 0 k)) (fun k => x5 (ix2 k 0)) (x6 (ix2 0 0)) := by
  rw [pay_eq]
  show matmul (φ₁ := .f32) (φ₂ := .f32) dot_S4096x64_S64x1_S4096x1_1_0_0_1_n_n (some .fp32) (hidden2 (hidden1 x0 x1 x2) x3 x4) (shapeCast S64x1 x5 shapeCasts_S64x1_S64x1) (constant (F := Ideal) S4096x1 .f32 0x00000000#32) (ix2 r 0)
    + broadcastTo S4096x1 (shapeCast S1x1 x6 shapeCasts_S1x1_S1x1) broadcasts_S1x1_S4096x1 (ix2 r 0) = _
  rw [shapeCast_self, shapeCast_self, closing_product, broadcastTo_1b_ab_apply]
  have e1 : (fun j => hidden1 x0 x1 x2 (ix2 r j)) = Cert.Spec.sinRow (fun a => x0 (ix2 r a)) (fun a j => x1 (ix2 a j)) (fun j => x2 (ix2 0 j)) :=
    funext fun j => hidden1_apply x0 x1 x2 r j
  have e2 : (fun k => hidden2 (hidden1 x0 x1 x2) x3 x4 (ix2 r k))
      = Cert.Spec.sinRow (Cert.Spec.sinRow (fun a => x0 (ix2 r a)) (fun a j => x1 (ix2 a j)) (fun j => x2 (ix2 0 j))) (fun j k => x3 (ix2 j k)) (fun k => x4 (ix2 0 k)) :=
    funext fun k => (hidden2_apply (hidden1 x0 x1 x2) x3 x4 r k).trans (by rw [e1])
  show Cert.Spec.linRow (fun k => hidden2 (hidden1 x0 x1 x2) x3 x4 (ix2 r k)) (fun k => x5 (ix2 k 0)) (x6 (ix2 0 0)) = _
  rw [e2]
  rfl

end Cert.KernelIdeal.HyperMatmul

end
-- ==== Proof.HyperRegion.lean ====
/-
  The first kernel region's array: the column of generated weights.

  The region runs 256 grid points. Point t is handed rows 4096·t … 4096·t + 4095 of the embeddings and the three
  layers' matrices and bias rows whole, and writes back rows 4096·t … 4096·t + 4095 of the column [1048576, 1].
  Row r of what it writes is the hypernetwork's weight of the embedding in row r of its block, that is of row
  4096·t + r of the embeddings: so each written block is that block of ONE column, the weight of every embedding,
  and since the 256 blocks tile the column, the column ends holding exactly that.
-/
import proofs.«121782_j13529146982441_1_alg».proof.Proof.Gen.KernelIdeal.Frame
import proofs.«121782_j13529146982441_1_alg».proof.Proof.Spec
import proofs.«121782_j13529146982441_1_alg».proof.Proof.HyperMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HyperRegion

open Cert.KernelIdeal Cert.KernelIdeal.Gen Idealize.ShloMosaic Idealize.ShloMosaic.TcCoe Idealize.SL.Sem Idealize.ShloMosaic.ValueIdx
open Cert.KernelIdeal.HyperMatmul

/-- The body loads and stores its whole staging buffers: every access starts at offset zero on both axes. -/
theorem zero_offsets : (![0, 0] : Fin 2 → Nat) = fun _ => 0 := funext fun a => by fin_cases a <;> rfl

/-- The printed index maps, decided over the 256 grid points: the embeddings' block and the written block are both
    block t on the row axis and block 0 on the column axis; the six parameter arrays are always block (0, 0). -/
theorem index_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

section
variable (V : (c : Dev nD) → (b : Ref sig .tc) → Buf (Elt Ideal) ((c : Thread nD τ).loc b))

/-- WHAT POINT t WRITES BACK is block t of the column of all weights. -/
theorem flushed_eq (c : Dev nD) (t : Fin cfg0.N) :
    (dat0 (F := Ideal) V c).flushed 7 t = ((cfg0.win 7).blk t).view.read (Elt Ideal) (Cert.Spec.weightColumn (V c main_arg1) (V c main_v0) (V c main_v1) (V c main_v2) (V c main_v3) (V c main_v4) (V c main_v5)) := by
  show (cfg0.win 7).cut (grid0.coords t) ((dat0 (F := Ideal) V c).after 7 t) = _
  rw [after0_7]
  unfold out0_7
  rw [View.canon_unit_zero zero_offsets]
  simp only [View.ld_unit_zero (S := S4096x18) zero_offsets, View.ld_unit_zero (S := S18x64) zero_offsets, View.ld_unit_zero (S := S1x64) zero_offsets,
    View.ld_unit_zero (S := S64x64) zero_offsets, View.ld_unit_zero (S := S64x1) zero_offsets, View.ld_unit_zero (S := S1x1) zero_offsets]
  obtain ⟨e00, e01, e10, e11, e20, e21, e30, e31, e40, e41, e50, e51, e60, e61, e70, e71⟩ := index_facts t
  funext j
  have hr : (j 0).val < 4096 := (j 0).isLt
  have hz : (j 1).val < 1 := (j 1).isLt
  have hj : (cfg0.win 7).xinj (grid0.coords t) j = ix2 (⟨(j 0).val, hr⟩ : Fin 4096) (0 : Fin 1) := by
    funext a; apply Fin.ext
    match a with
    | ⟨0, _⟩ => rfl
    | ⟨1, _⟩ => show (j 1).val = 0; omega
  show k0_pay1 (F := Ideal) (iblk0 V c 0 t) (iblk0 V c 1 t) (iblk0 V c 2 t) (iblk0 V c 3 t) (iblk0 V c 4 t) (iblk0 V c 5 t) (iblk0 V c 6 t) ((cfg0.win 7).xinj (grid0.coords t) j)
    = (Cert.Spec.weightColumn (V c main_arg1) (V c main_v0) (V c main_v1) (V c main_v2) (V c main_v3) (V c main_v4) (V c main_v5)) (((cfg0.win 7).blk t).view.emb j)
  rw [hj, pay_apply]
  have E0 : (fun a : Fin 18 => iblk0 V c 0 t (ix2 (⟨(j 0).val, hr⟩ : Fin 4096) a))
      = fun a : Fin 18 => V c main_arg1 (ix2 ((((cfg0.win 7).blk t).view.emb j) 0) a) := funext fun a => by
    show V c main_arg1 (((cfg0.win 0).blk t).view.emb (ix2 (⟨(j 0).val, hr⟩ : Fin 4096) a)) = _
    refine congrArg (V c main_arg1) (funext fun b => Fin.ext ?_)
    match b with
    | ⟨0, _⟩ => show win0_0.index t (0 : Fin 2) * 4096 + 1 * (j 0).val = win0_7.index t (0 : Fin 2) * 4096 + 1 * (j 0).val; rw [e00]
    | ⟨1, _⟩ => show win0_0.index t (1 : Fin 2) * 18 + 1 * a.val = a.val; rw [e01]; omega
  have E1 : (fun (a : Fin 18) (k : Fin 64) => iblk0 V c 1 t (ix2 a k)) = fun (a : Fin 18) (k : Fin 64) => V c main_v0 (ix2 a k) := funext fun a => funext fun k => by
    show V c main_v0 (((cfg0.win 1).blk t).view.emb (ix2 a k)) = _
    refine congrArg (V c main_v0) (funext fun b => Fin.ext ?_)
    match b with
    | ⟨0, _⟩ => show win0_1.index t (0 : Fin 2) * 18 + 1 * (a).val = (a).val; rw [e10]; omega
    | ⟨1, _⟩ => show win0_1.index t (1 : Fin 2) * 64 + 1 * (k).val = (k).val; rw [e11]; omega
  have E2 : (fun (k : Fin 64) => iblk0 V c 2 t (ix2 (0 : Fin 1) k)) = fun (k : Fin 64) => V c main_v1 (ix2 (0 : Fin 1) k) := funext fun k => by
    show V c main_v1 (((cfg0.win 2).blk t).view.emb (ix2 (0 : Fin 1) k)) = _
    refine congrArg (V c main_v1) (funext fun b => Fin.ext ?_)
    match b with
    | ⟨0, _⟩ => show win0_2.index t (0 : Fin 2) * 1 + 1 * ((0 : Fin 1)).val = ((0 : Fin 1)).val; rw [e20]; omega
    | ⟨1, _⟩ => show win0_2.index t (1 : Fin 2) * 64 + 1 * (k).val = (k).val; rw [e21]; omega
  have E3 : (fun (a : Fin 64) (k : Fin 64) => iblk0 V c 3 t (ix2 a k)) = fun (a : Fin 64) (k : Fin 64) => V c main_v2 (ix2 a k) := funext fun a => funext fun k => by
    show V c main_v2 (((cfg0.win 3).blk t).view.emb (ix2 a k)) = _
    refine congrArg (V c main_v2) (funext fun b => Fin.ext ?_)
    match b with
    | ⟨0, _⟩ => show win0_3.index t (0 : Fin 2) * 64 + 1 * (a).val = (a).val; rw [e30]; omega
    | ⟨1, _⟩ => show win0_3.index t (1 : Fin 2) * 64 + 1 * (k).val = (k).val; rw [e31]; omega
  have E4 : (fun (k : Fin 64) => iblk0 V c 4 t (ix2 (0 : Fin 1) k)) = fun (k : Fin 64) => V c main_v3 (ix2 (0 : Fin 1) k) := funext fun k => by
    show V c main_v3 (((cfg0.win 4).blk t).view.emb (ix2 (0 : Fin 1) k)) = _
    refine congrArg (V c main_v3) (funext fun b => Fin.ext ?_)
    match b with
    | ⟨0, _⟩ => show win0_4.index t (0 : Fin 2) * 1 + 1 * ((0 : Fin 1)).val = ((0 : Fin 1)).val; rw [e40]; omega
    | ⟨1, _⟩ => show win0_4.index t (1 : Fin 2) * 64 + 1 * (k).val = (k).val; rw [e41]; omega
  have E5 : (fun (k : Fin 64) => iblk0 V c 5 t (ix2 k (0 : Fin 1))) = fun (k : Fin 64) => V c main_v4 (ix2 k (0 : Fin 1)) := funext fun k => by
    show V c main_v4 (((cfg0.win 5).blk t).view.emb (ix2 k (0 : Fin 1))) = _
    refine congrArg (V c main_v4) (funext fun b => Fin.ext ?_)
    match b with
    | ⟨0, _⟩ => show win0_5.index t (0 : Fin 2) * 64 + 1 * (k).val = (k).val; rw [e50]; omega
    | ⟨1, _⟩ => show win0_5.index t (1 : Fin 2) * 1 + 1 * ((0 : Fin 1)).val = ((0 : Fin 1)).val; rw [e51]; omega
  have E6 : iblk0 V c 6 t (ix2 (0 : Fin 1) (0 : Fin 1)) = V c main_v5 (ix2 (0 : Fin 1) (0 : Fin 1)) := by
    show V c main_v5 (((cfg0.win 6).blk t).view.emb (ix2 (0 : Fin 1) (0 : Fin 1))) = _
    refine congrArg (V c main_v5) (funext fun b => Fin.ext ?_)
    match b with
    | ⟨0, _⟩ => show win0_6.index t (0 : Fin 2) * 1 + 1 * 0 = 0; rw [e60]
    | ⟨1, _⟩ => show win0_6.index t (1 : Fin 2) * 1 + 1 * 0 = 0; rw [e61]
  rw [E0, E1, E2, E3, E4, E5, E6]
  rfl

end

/-- An index of the column is in point t's block iff each coordinate is in the block's range on its axis. -/
theorem mem_block (t : Fin cfg0.N) (i : S1048576x1.Idx) :
    i ∈ ((cfg0.win 7).blk t).view.set ↔ ∀ a : Fin 2, win0_7.index t a * S4096x1.size a ≤ (i a).val ∧ (i a).val < win0_7.index t a * S4096x1.size a + S4096x1.size a := by
  show i ∈ ((View.whole main_v6).slice (win0_7.rect t)).set ↔ _
  rw [View.set_slice_whole, Rect.mem_set_unit]
  exact Iff.rfl

/-- The 256 blocks of 4096 rows tile the column: row r lies in the block of point r / 4096, and every point writes
    its block back. -/
theorem cover (i : S1048576x1.Idx) :
    ∃ t : Fin cfg0.N, (cfg0.win 7).flush t = true ∧ i ∈ ((cfg0.win 7).blk t).view.set := by
  have hi0 : (i 0).val < 1048576 := (i 0).isLt
  have hi1 : (i 1).val < 1 := (i 1).isLt
  have hN : cfg0.N = 256 := by decide
  have ht : (i 0).val / 4096 < cfg0.N := by rw [hN]; omega
  obtain ⟨-, -, -, -, -, -, -, -, -, -, -, -, -, -, e70, e71⟩ := index_facts ⟨(i 0).val / 4096, ht⟩
  refine ⟨⟨(i 0).val / 4096, ht⟩, flush0_7 _, ?_⟩
  rw [mem_block]
  intro a
  match a with
  | ⟨0, _⟩ =>
    show win0_7.index ⟨(i 0).val / 4096, ht⟩ (0 : Fin 2) * 4096 ≤ (i 0).val ∧ (i 0).val < win0_7.index ⟨(i 0).val / 4096, ht⟩ (0 : Fin 2) * 4096 + 4096
    rw [e70]
    show (i 0).val / 4096 * 4096 ≤ (i 0).val ∧ (i 0).val < (i 0).val / 4096 * 4096 + 4096
    omega
  | ⟨1, _⟩ =>
    show win0_7.index ⟨(i 0).val / 4096, ht⟩ (1 : Fin 2) * 1 ≤ (i 1).val ∧ (i 1).val < win0_7.index ⟨(i 0).val / 4096, ht⟩ (1 : Fin 2) * 1 + 1
    rw [e71]
    omega

/-- THE COLUMN after the region: the weight of every embedding, from the arrays as the region finds them. -/
theorem hyper_array (V : (c : Dev nD) → (b : Ref sig .tc) → Buf (Elt Ideal) ((c : Thread nD τ).loc b)) (c : Dev nD) :
    (dat0 (F := Ideal) V c).arrAt 7 cfg0.N
      = Cert.Spec.weightColumn (V c main_arg1) (V c main_v0) (V c main_v1) (V c main_v2) (V c main_v3) (V c main_v4) (V c main_v5) :=
  (dat0 (F := Ideal) V c).arrAt_eq_of_cover 7 (Cert.Spec.weightColumn (V c main_arg1) (V c main_v0) (V c main_v1) (V c main_v2) (V c main_v3) (V c main_v4) (V c main_v5))
    (fun t _ => flushed_eq V c t) cover

end Cert.KernelIdeal.HyperRegion

end
-- ==== Proof.AffineMatmul.lean ====
/-
  The second region's body at one entry of its output block.

  The body takes the block of `x` (512 rows of 1024), the whole generated weight matrix `W` (1024 × 1024) and the
  bias row, transposes `W`, contracts the block's columns against the transposed matrix's rows into a zero
  accumulator and adds the bias row laid over the 512 rows. At the extended reals the narrowing of both operands
  is the identity and the contraction is the plain sum, so entry (r, q) of what the body stores is
      Σ_k x_{r k} · W_{q k} + bias_q.
-/
import proofs.«121782_j13529146982441_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AffineMatmul

open Cert.KernelIdeal Cert.KernelIdeal.Gen Idealize.ShloMosaic Idealize.ShloMosaic.TcCoe Idealize.SL.Sem Idealize.ShloMosaic.ValueIdx

/-! ## The contraction's index maps, axis by axis

The product contracts axis 1 of the left operand with axis 0 of the right one; the left operand's axis 0 and the right
operand's axis 1 are the result's two axes. -/

/-- The left operand's row is the result's row. -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

/-- The left operand's column is the contraction index. -/
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

/-- The right operand's row is the contraction index. -/
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- The right operand's column is the result's column. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The product into the zero accumulator -/

/-- Entry (r, q) of the product of a [512, 1024] block with a [1024, 1024] matrix, accumulated into zero, is the sum
    over the 1024 contracted positions of the block's row r times the matrix's column q. -/
theorem product_apply {φ₁ φ₂ : FTy} (l : FVec Ideal S512x1024 φ₁) (rT : FVec Ideal S1024x1024 φ₂) (r : Fin 512) (q : Fin 1024) :
    matmul dot_S512x1024_S1024x1024_S512x1024_1_0_0_1_n_n none l rT (constant (F := Ideal) S512x1024 .f32 0x00000000#32) (ix2 r q)
      = ∑ k : Fin 1024, l (ix2 r k) * rT (ix2 k q) := by
  refine (Ideal.matmul_constant_zero_apply dot_S512x1024_S1024x1024_S512x1024_1_0_0_1_n_n none l rT (ix2 r q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r q) ((contrEquiv1 dot_S512x1024_S1024x1024_S512x1024_1_0_0_1_n_n 1024 rfl rfl).symm k) = ix2 r k := funext fun a => Fin.ext (by
    match a with
    | ⟨0, _⟩ => exact lhs_row _ _
    | ⟨1, _⟩ => exact (lhs_col _ _).trans hk)
  have er : dot_S512x1024_S1024x1024_S512x1024_1_0_0_1_n_n.rhsIdx (ix2 r q) ((contrEquiv1 dot_S512x1024_S1024x1024_S512x1024_1_0_0_1_n_n 1024 rfl rfl).symm k) = ix2 k q := funext fun a => Fin.ext (by
    match a with
    | ⟨0, _⟩ => exact (rhs_row _ _).trans hk
    | ⟨1, _⟩ => exact rhs_col _ _)
  rw [el, er]

/-! ## The layout operations at an index -/

/-- The transposed matrix at (k, q) is the matrix at (q, k). -/
theorem transposed_apply {α : Type} (y : S1024x1024.Idx → α) (k q : Fin 1024) :
    transpose S1024x1024 [1, 0] y transposes_S1024x1024_p1_0_S1024x1024 (ix2 k q) = y (ix2 q k) :=
  transpose_apply [1, 0] y transposes_S1024x1024_p1_0_S1024x1024 (ix2 k q) (ix2 q k) (fun b => match b with
    | ⟨0, _⟩ => rfl
    | ⟨1, _⟩ => rfl)

/-- The bias row laid over the 512 rows reads, at (r, q), the row's entry q. -/
theorem biasRows_apply {α : Type} (y : S1x1024.Idx → α) (r : Fin 512) (q : Fin 1024) :
    broadcastTo S512x1024 y broadcasts_S1x1024_S512x1024 (ix2 r q) = y (ix2 0 q) :=
  broadcastTo_apply y broadcasts_S1x1024_S512x1024 (ix2 r q) (ix2 0 q) (fun a => match a with
    | ⟨0, _⟩ => rfl
    | ⟨1, _⟩ => rfl)

/-! ## The body's payload at an index -/

/-- Entry (r, q) of what the body stores: row r of the block of `x` against row q of the weight matrix, plus the
    bias at q. -/
theorem pay_apply (x0 : Vec Ideal S512x1024 .f32) (x1 : Vec Ideal S1024x1024 .f32) (x2 : Vec Ideal S1x1024 .f32) (r : Fin 512) (q : Fin 1024) :
    k1_pay1 (F := Ideal) x0 x1 x2 (ix2 r q) = (∑ k : Fin 1024, x0 (ix2 r k) * x1 (ix2 q k)) + x2 (ix2 0 q) := by
  unfold k1_pay1
  simp only [shapeCast_self]
  refine (addf_apply _ _ (ix2 r q)).trans ?_
  refine congrArg₂ (· + ·) ?_ ?_
  · refine (product_apply _ _ r q).trans ?_
    refine Finset.sum_congr rfl fun k _ => ?_
    refine congrArg₂ (· * ·) rfl ?_
    exact transposed_apply _ k q
  · exact biasRows_apply x2 r q

end Cert.KernelIdeal.AffineMatmul

end
-- ==== Proof.AffineRegion.lean ====
/-
  The second region's output array after all its grid points.

  The region walks 16 points. Point t is handed rows 512·t … 512·t + 511 of `x` (all 1024 columns), the whole
  generated weight matrix and the whole bias row, and writes back rows 512·t … 512·t + 511 of the output. Entry
  (r, q) of what it writes is  Σ_k x_{512 t + r, k} · W_{q k} + bias_q  — the affine map read at row 512·t + r —,
  and the 16 row blocks tile the [8192, 1024] output, so the array ends holding the affine map everywhere.
-/
import proofs.«121782_j13529146982441_1_alg».proof.Proof.Gen.KernelIdeal.Frame
import proofs.«121782_j13529146982441_1_alg».proof.Proof.Spec
import proofs.«121782_j13529146982441_1_alg».proof.Proof.AffineMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AffineRegion

open Cert.KernelIdeal Cert.KernelIdeal.Gen Idealize.ShloMosaic Idealize.ShloMosaic.TcCoe Idealize.SL.Sem Idealize.ShloMosaic.ValueIdx
open Cert.KernelIdeal.AffineMatmul

variable (V : (c : Dev nD) → (b : Ref sig .tc) → Buf (Elt Ideal) ((c : Thread nD τ).loc b))

/-- A block read from offset (0, 0) is read from the start. -/
theorem zeroOffset : (![0, 0] : Fin 2 → Nat) = fun _ => 0 := funext fun a => by fin_cases a <;> rfl

/-! ## Which block each window hands to a point -/

/-- At point t the blocks of `x` and of the output are row block t (column block 0); the weight matrix and the
    bias row are each one block, block (0, 0), at every point. -/
theorem blockIndex : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-! ## One entry of the block a point stores, from arrays that agree with the blocks row by row -/

/-- If row r of the block of `x` is row (i 0) of `X`, row q of the weight block is row (i 1) of `W` and the bias
    block at q is `B` at (i 1), the stored entry (r, q) is the affine map of `X`, `W`, `B` at i. -/
theorem stored_entry (x0 : Vec Ideal S512x1024 .f32) (x1 : Vec Ideal S1024x1024 .f32) (x2 : Vec Ideal S1x1024 .f32)
    (X : S8192x1024.Idx → EReal) (W : S1024x1024.Idx → EReal) (B : S1x1024.Idx → EReal)
    (r : Fin 512) (q : Fin 1024) (i : S8192x1024.Idx)
    (hx : ∀ k : Fin 1024, x0 (ix2 r k) = X (ix2 (i 0) k))
    (hw : ∀ k : Fin 1024, x1 (ix2 q k) = W (ix2 (i 1) k))
    (hb : x2 (ix2 0 q) = B (ix2 0 (i 1))) :
    k1_pay1 (F := Ideal) x0 x1 x2 (ix2 r q) = Cert.Spec.affine X W B i := by
  refine (pay_apply x0 x1 x2 r q).trans ?_
  show _ = (∑ k : Fin 1024, X (ix2 (i 0) k) * W (ix2 (i 1) k)) + B (ix2 0 (i 1))
  rw [hb]
  refine congrArg₂ (· + ·) (Finset.sum_congr rfl fun k _ => ?_) rfl
  rw [hx k, hw k]

/-! ## The input blocks as rows of their arrays -/

/-- The block of `x` at point t, at (r, k), is `x` at (512·t + r, k). -/
theorem xBlock_apply (c : Dev nD) (t : Fin cfg1.N) (y : S512x1024.Idx) (i : S8192x1024.Idx)
    (h0 : (i 0).val = 512 * t.val + (y 0).val) (h1 : (i 1).val = (y 1).val) :
    (iblk1 V c 0 t : Vec Ideal S512x1024 .f32) y = V c main_arg0 i := by
  obtain ⟨e00, e01, e10, e11, e20, e21, e31, e30⟩ := blockIndex t
  unfold iblk1
  rw [View.read_apply]
  show V c main_arg0 _ = V c main_arg0 _
  refine congrArg (V c main_arg0) (funext fun a => Fin.ext ?_)
  match a with
  | ⟨0, _⟩ => show win1_0.index t (0 : Fin 2) * 512 + 1 * (y 0).val = (i 0).val; omega
  | ⟨1, _⟩ => show win1_0.index t (1 : Fin 2) * 1024 + 1 * (y 1).val = (i 1).val; omega

/-- The weight block at every point is the whole weight matrix. -/
theorem wBlock_apply (c : Dev nD) (t : Fin cfg1.N) (y : S1024x1024.Idx) :
    (iblk1 V c 1 t : Vec Ideal S1024x1024 .f32) y = V c main_v7 y := by
  obtain ⟨e00, e01, e10, e11, e20, e21, e31, e30⟩ := blockIndex t
  unfold iblk1
  rw [View.read_apply]
  show V c main_v7 _ = V c main_v7 _
  refine congrArg (V c main_v7) (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The bias block at every point is the whole bias row. -/
theorem biasBlock_apply (c : Dev nD) (t : Fin cfg1.N) (y : S1x1024.Idx) :
    (iblk1 V c 2 t : Vec Ideal S1x1024 .f32) y = V c main_v8 y := by
  obtain ⟨e00, e01, e10, e11, e20, e21, e31, e30⟩ := blockIndex t
  unfold iblk1
  rw [View.read_apply]
  show V c main_v8 _ = V c main_v8 _
  refine congrArg (V c main_v8) (funext fun a => Fin.ext ?_)
  match a with
  | ⟨0, _⟩ => show win1_2.index t (0 : Fin 2) * 1 + 1 * (y 0).val = (y 0).val; omega
  | ⟨1, _⟩ => show win1_2.index t (1 : Fin 2) * 1024 + 1 * (y 1).val = (y 1).val; omega

/-! ## What a point writes back -/

/-- Point t writes back block t of the affine map of the arrays the region is handed. -/
theorem flushed_eq (c : Dev nD) (t : Fin cfg1.N) :
    (dat1 (F := Ideal) V c).flushed 3 t
      = ((cfg1.win 3).blk t).view.read (Elt Ideal) (Cert.Spec.affine (V c main_arg0) (V c main_v7) (V c main_v8)) := by
  show (cfg1.win 3).cut (grid1.coords t) ((dat1 V c).after 3 t) = _
  rw [after1_3]
  unfold out1_3
  rw [View.canon_unit_zero zeroOffset]
  simp only [View.ld_unit_zero (S := S512x1024) zeroOffset, View.ld_unit_zero (S := S1024x1024) zeroOffset, View.ld_unit_zero (S := S1x1024) zeroOffset]
  obtain ⟨e00, e01, e10, e11, e20, e21, e31, e30⟩ := blockIndex t
  funext j
  show k1_pay1 (F := Ideal) (iblk1 V c 0 t) (iblk1 V c 1 t) (iblk1 V c 2 t) j
    = Cert.Spec.affine (V c main_arg0) (V c main_v7) (V c main_v8) (((cfg1.win 3).blk t).view.emb j)
  have o0 : ((((cfg1.win 3).blk t).view.emb j) 0).val = 512 * t.val + (j 0).val := by
    show win1_3.index t (0 : Fin 2) * 512 + 1 * (j 0).val = _; omega
  have o1 : ((((cfg1.win 3).blk t).view.emb j) 1).val = (j 1).val := by
    show win1_3.index t (1 : Fin 2) * 1024 + 1 * (j 1).val = _; omega
  refine (congrArg (k1_pay1 (F := Ideal) (iblk1 V c 0 t) (iblk1 V c 1 t) (iblk1 V c 2 t)) (eq_ix2 (n0 := 512) (n1 := 1024) j)).trans ?_
  refine stored_entry _ _ _ _ _ _ (j 0) (j 1) _ (fun k => ?_) (fun k => ?_) ?_
  · exact xBlock_apply V c t _ _ o0 rfl
  · refine (wBlock_apply V c t _).trans (congrArg (V c main_v7) (funext fun a => Fin.ext ?_))
    match a with
    | ⟨0, _⟩ => exact o1.symm
    | ⟨1, _⟩ => rfl
  · refine (biasBlock_apply V c t _).trans (congrArg (V c main_v8) (funext fun a => Fin.ext ?_))
    match a with
    | ⟨0, _⟩ => rfl
    | ⟨1, _⟩ => exact o1.symm

/-! ## The blocks tile the output -/

/-- An index of the output is in point t's block iff each coordinate is in the block's range on its axis. -/
theorem mem_outBlock (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v9).slice (win1_3.rect t)).set ↔ _
  rw [View.set_slice_whole, Rect.mem_set_unit]
  exact Iff.rfl

/-- Row p of the output lies in the block of point p / 512, which is written back. -/
theorem covered (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 16 := N_1
  have ht : (i 0).val / 512 < cfg1.N := by rw [hN]; omega
  obtain ⟨e00, e01, e10, e11, e20, e21, e31, e30⟩ := blockIndex ⟨(i 0).val / 512, ht⟩
  refine ⟨⟨(i 0).val / 512, ht⟩, flush1_3 _, ?_⟩
  rw [mem_outBlock]
  intro a
  match a with
  | ⟨0, _⟩ =>
    show win1_3.index ⟨(i 0).val / 512, ht⟩ (0 : Fin 2) * 512 ≤ (i 0).val ∧ (i 0).val < win1_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win1_3.index ⟨(i 0).val / 512, ht⟩ (1 : Fin 2) * 1024 ≤ (i 1).val ∧ (i 1).val < win1_3.index ⟨(i 0).val / 512, ht⟩ (1 : Fin 2) * 1024 + 1024
    rw [e31]; omega

/-! ## The array -/

/-- After the region's 16 points its output array is the affine map of `x`, the weight matrix and the bias row as the
    region was handed them. -/
theorem affine_array (V : (c : Dev nD) → (b : Ref sig .tc) → Buf (Elt Ideal) ((c : Thread nD τ).loc b)) (c : Dev nD) :
    (dat1 (F := Ideal) V c).arrAt 3 cfg1.N
      = Cert.Spec.affine (V c main_arg0) (V c main_v7) (V c main_v8) :=
  (dat1 (F := Ideal) V c).arrAt_eq_of_cover 3 (Cert.Spec.affine (V c main_arg0) (V c main_v7) (V c main_v8))
    (fun t _ => flushed_eq V c t) covered

end Cert.KernelIdeal.AffineRegion

end
-- ==== Proof.KernelValue.lean ====
/-
  The kernel program's result as a function of its nine arguments.

  The run leaves the result buffer at what the second region's write-backs make of the buffers it was entered
  with; those are `x` as launched, the first region's column of weights reshaped row-major to 1024 × 1024, and
  the output bias as a row; and the first region's column is the hypernetwork applied, row by row, to the
  embeddings as launched and the small parameters laid out by the host. Composed, this is the specification.
-/
import proofs.«121782_j13529146982441_1_alg».proof.Proof.KernelRun
import proofs.«121782_j13529146982441_1_alg».proof.Proof.HostStretch
import proofs.«121782_j13529146982441_1_alg».proof.Proof.SpecCompose
import proofs.«121782_j13529146982441_1_alg».proof.Proof.HyperRegion
import proofs.«121782_j13529146982441_1_alg».proof.Proof.AffineRegion

noncomputable section

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The matrix the second region is handed holds, at (q, k), the hypernetwork's weight of grid point 1024·q + k. -/
theorem weights_entry (c : Dev nD) (q k : Fin 1024) :
    V3 m ρ c main_v7 (ix2 q k)
      = Cert.Spec.weightColumn (m ((c : Thread nD τ).loc main_arg1)) (V1 m ρ c main_v0) (V1 m ρ c main_v1) (V1 m ρ c main_v2)
          (V1 m ρ c main_v3) (V1 m ρ c main_v4) (V1 m ρ c main_v5) (ix2 (Cert.Spec.flat q k) 0) := by
  rw [V3_v7, grid_ix2, Cert.KernelIdeal.HyperRegion.hyper_array (V1 m ρ) c, V1_arg1]

/-- The result buffer after the run is the specification of the arguments as launched. -/
theorem result_eq (c : Dev nD) :
    W4 m ρ c (Proc.devRef .tc main_v9)
      = Cert.Spec.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  rw [W4_v9, Cert.KernelIdeal.AffineRegion.affine_array (V3 m ρ) c, V3_arg0]
  refine Cert.Spec.affine_of_weightColumn _ _ _ _ _ _ _ _ _
    (V1 m ρ c main_v0) (V1 m ρ c main_v1) (V1 m ρ c main_v2) (V1 m ρ c main_v3) (V1 m ρ c main_v4) (V1 m ρ c main_v5)
    _ _ ?_ ?_ ?_ ?_ ?_ ?_ (weights_entry m ρ c) ?_
  · intro a j; rw [V1_v0]; exact transpose_ix2 _ _ a j
  · intro j; rw [V1_v1]; exact row_ix2 _ _ j
  · intro j k; rw [V1_v2]; exact transpose_ix2 _ _ j k
  · intro k; rw [V1_v3]; exact row_ix2 _ _ k
  · intro k; rw [V1_v4]; exact transpose_ix2 _ _ k 0
  · rw [V1_v5]; exact row_ix2 _ _ 0
  · intro q; rw [V3_v8]; exact row_ix2 _ _ q

/-- Every weakly fair execution of the kernel program ends with the result at the specification of the arguments
    and the arguments unchanged. -/
theorem run : θ_run defs (onTc (τ := τ) (main (F := Ideal))) ⟨m, fun _ => 0, ρ⟩ (fun r => ∀ c : Dev nD,
      r.2.mem ((c.tc : Thread nD τ).loc main_v9)
        = Cert.Spec.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩)
    (Cert.KernelIdeal.Run.run_result (F := Ideal) m ρ)

end Cert.KernelIdeal.Fold

end
-- ==== Proof.lean ====
/-
  The certificate. Both programs compute one function of the nine argument arrays, at the extended reals:
  for every grid point n of 1024 × 1024 the hypernetwork's weight
      w_n = Σ_k sin (30 · (Σ_j sin (30 · (Σ_i E_{n i} · W1_{j i} + b1_j)) · W2_{k j} + b2_k)) · W3_{0 k} + b3_0
  and then  out_{p q} = Σ_k x_{p k} · w_{1024 q + k} + bias_q.
  The kernel program computes the weights block by block in its first region (4096 grid points at a time), lets the
  host reshape the column row-major, and computes the affine map block by block in its second region (512 rows
  at a time), feeding the matrix unit operands narrowed to bf16 — the identity on extended reals — and summing
  into a zero accumulator; the reference computes the same sums whole. No law beyond reindexing the sums is
  used, so the finiteness of the inputs is never opened.
  The three frames: the kernel programs' are the generated ones; the reference's is its run with the result dropped.
  The idealization ledger is empty.
-/
import proofs.«121782_j13529146982441_1_alg».proof.Defs
import proofs.«121782_j13529146982441_1_alg».proof.Proof.Gen.Kernel
import proofs.«121782_j13529146982441_1_alg».proof.Proof.Gen.Kernel.Frame
import proofs.«121782_j13529146982441_1_alg».proof.Proof.Gen.KernelIdeal
import proofs.«121782_j13529146982441_1_alg».proof.Proof.Gen.KernelIdeal.Frame
import proofs.«121782_j13529146982441_1_alg».proof.Proof.Gen.ReferenceIdeal
import proofs.«121782_j13529146982441_1_alg».proof.Proof.Gen.ReferenceIdeal.Run
import proofs.«121782_j13529146982441_1_alg».proof.Proof.Gen.ReferenceIdeal.Read
import proofs.«121782_j13529146982441_1_alg».proof.Proof.Gen.Pre_finite_inputs
import proofs.«121782_j13529146982441_1_alg».proof.Proof.RefValue
import proofs.«121782_j13529146982441_1_alg».proof.Proof.KernelValue
import Idealize.ShloMosaic.Adequacy
import Idealize.ShloMosaic.Init

noncomputable section

namespace Cert.Proof

open Idealize.ShloMosaic Idealize.SL.Sem

/-- The reference terminates with its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the result at the specification of
    those arguments: the kernel program by its fold through the two regions, the reference by reading its
    operations at an index. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v26_eq, Cert.ReferenceIdeal.RefValue.ref_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
